-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S11008x192 : Shape := ⟨2, ![11008, 192]⟩
abbrev S192x4096 : Shape := ⟨2, ![192, 4096]⟩
abbrev S11008 : Shape := ⟨1, ![11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S11008x192 : S_.BroadcastsInDim S11008x192 (![] : Fin 0 → Fin S11008x192.rank)
  reducesTo_S11008x192_S_d0_1 : S11008x192.ReducesTo [0, 1] S_
  bcast_S_S192x4096 : S_.BroadcastsInDim S192x4096 (![] : Fin 0 → Fin S192x4096.rank)
  reducesTo_S192x4096_S_d0_1 : S192x4096.ReducesTo [0, 1] S_
  bcast_S_S11008 : S_.BroadcastsInDim S11008 (![] : Fin 0 → Fin S11008.rank)
  reducesTo_S11008_S_d0 : S11008.ReducesTo [0] S_

variable [Facts]

def fn_part1 {F : FTy → Type} [FloatOps F] (main_arg4 : FVec F S11008 .f32) (main_v13 : IVec S_ 1) (main_v16 : IVec S192x4096 1) : IVec S_ 1 :=
  let main_c_5 : IVec S_ 1 := constantI S_ 1 1#1
  let main_v17 : IVec S_ 1 := (fun x v => Host.reduce IntOp.andi x v reducesTo_S192x4096_S_d0_1 h_S_) main_v16 main_c_5
  let main_v18 : IVec S_ 1 := andi main_v13 main_v17
  let main_v19 : FVec F S11008 .f32 := Host.absf main_arg4
  let main_cst_6 : FVec F S_ .f32 := constant S_ .f32 0x7F800000#32
  let main_v20 : FVec F S11008 .f32 := broadcastInDim S11008 ![] bcast_S_S11008 main_cst_6
  let main_v21 : IVec S11008 1 := cmpf .olt main_v19 main_v20
  let main_c_7 : IVec S_ 1 := constantI S_ 1 1#1
  let main_v22 : IVec S_ 1 := (fun x v => Host.reduce IntOp.andi x v reducesTo_S11008_S_d0 h_S_) main_v21 main_c_7
  let main_v23 : IVec S_ 1 := andi main_v18 main_v22
  main_v23

def fn {F : FTy → Type} [FloatOps F] (main_arg0 : FVec F S4x2048x4096 .f32) (main_arg1 : FVec F S11008x4096 .f32) (main_arg2 : FVec F S11008x192 .f32) (main_arg3 : FVec F S192x4096 .f32) (main_arg4 : FVec F S11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008x192 .f32 := Host.absf main_arg2
  let main_cst_2 : FVec F S_ .f32 := constant S_ .f32 0x7F800000#32
  let main_v10 : FVec F S11008x192 .f32 := broadcastInDim S11008x192 ![] bcast_S_S11008x192 main_cst_2
  let main_v11 : IVec S11008x192 1 := cmpf .olt main_v9 main_v10
  let main_c_3 : IVec S_ 1 := constantI S_ 1 1#1
  let main_v12 : IVec S_ 1 := (fun x v => Host.reduce IntOp.andi x v reducesTo_S11008x192_S_d0_1 h_S_) main_v11 main_c_3
  let main_v13 : IVec S_ 1 := andi main_v8 main_v12
  let main_v14 : FVec F S192x4096 .f32 := Host.absf main_arg3
  let main_cst_4 : FVec F S_ .f32 := constant S_ .f32 0x7F800000#32
  let main_v15 : FVec F S192x4096 .f32 := broadcastInDim S192x4096 ![] bcast_S_S192x4096 main_cst_4
  let main_v16 : IVec S192x4096 1 := cmpf .olt main_v14 main_v15
  fn_part1 (F := F) main_arg4 main_v13 main_v16
-- ==== Kernel.lean ====
abbrev S4x2048x4096 : Shape := ⟨3, ![4, 2048, 4096]⟩
abbrev S11008x4096 : Shape := ⟨2, ![11008, 4096]⟩
abbrev S11008x192 : Shape := ⟨2, ![11008, 192]⟩
abbrev S192x4096 : Shape := ⟨2, ![192, 4096]⟩
abbrev S11008 : Shape := ⟨1, ![11008]⟩
abbrev S128x4096 : Shape := ⟨2, ![128, 4096]⟩
abbrev S128x192 : Shape := ⟨2, ![128, 192]⟩
abbrev S128 : Shape := ⟨1, ![128]⟩
abbrev S128x1 : Shape := ⟨2, ![128, 1]⟩
abbrev S8192x4096 : Shape := ⟨2, ![8192, 4096]⟩
abbrev S1x11008 : Shape := ⟨2, ![1, 11008]⟩
abbrev S8192x11008 : Shape := ⟨2, ![8192, 11008]⟩
abbrev S512x4096 : Shape := ⟨2, ![512, 4096]⟩
abbrev S256x4096 : Shape := ⟨2, ![256, 4096]⟩
abbrev S1x256 : Shape := ⟨2, ![1, 256]⟩
abbrev S512x256 : Shape := ⟨2, ![512, 256]⟩
abbrev S4x2048x11008 : Shape := ⟨3, ![4, 2048, 11008]⟩

abbrev nBuf : Space → Nat
  | .hbm => 10
  | .vmem => 15
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S11008x192, .f32⟩
  | .hbm, ⟨3, _⟩ => ⟨S192x4096, .f32⟩
  | .hbm, ⟨4, _⟩ => ⟨S11008, .f32⟩
  | .hbm, ⟨5, _⟩ => ⟨S11008x4096, .bf16⟩
  | .hbm, ⟨6, _⟩ => ⟨S8192x4096, .f32⟩
  | .hbm, ⟨7, _⟩ => ⟨S1x11008, .f32⟩
  | .hbm, ⟨8, _⟩ => ⟨S8192x11008, .f32⟩
  | .hbm, ⟨9, _⟩ => ⟨S4x2048x11008, .f32⟩
  | .local _ .vmem, ⟨0, _⟩ => ⟨S128x4096, .f32⟩
  | .local _ .vmem, ⟨1, _⟩ => ⟨S128x4096, .f32⟩
  | .local _ .vmem, ⟨2, _⟩ => ⟨S128x192, .f32⟩
  | .local _ .vmem, ⟨3, _⟩ => ⟨S128x192, .f32⟩
  | .local _ .vmem, ⟨4, _⟩ => ⟨S192x4096, .f32⟩
  | .local _ .vmem, ⟨5, _⟩ => ⟨S128x4096, .bf16⟩
  | .local _ .vmem, ⟨6, _⟩ => ⟨S128x4096, .bf16⟩
  | .local _ .vmem, ⟨7, _⟩ => ⟨S512x4096, .f32⟩
  | .local _ .vmem, ⟨8, _⟩ => ⟨S512x4096, .f32⟩
  | .local _ .vmem, ⟨9, _⟩ => ⟨S256x4096, .bf16⟩
  | .local _ .vmem, ⟨10, _⟩ => ⟨S256x4096, .bf16⟩
  | .local _ .vmem, ⟨11, _⟩ => ⟨S1x256, .f32⟩
  | .local _ .vmem, ⟨12, _⟩ => ⟨S1x256, .f32⟩
  | .local _ .vmem, ⟨13, _⟩ => ⟨S512x256, .f32⟩
  | .local _ .vmem, ⟨14, _⟩ => ⟨S512x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![86], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S192x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![16, 43], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S128x192_S128x192_0_0 : ∀ a, (![0, 0] : Fin 2 → Nat) a + S128x192.size a ≤ S128x192.size a
  h_S128x192 : 0 < S128x192.numel
  bitsLt_bf16_f32 : FTy.bits .bf16 < FTy.bits .f32
  inb_S192x4096_S192x4096_0_0 : ∀ a, (![0, 0] : Fin 2 → Nat) a + S192x4096.size a ≤ S192x4096.size a
  h_S192x4096 : 0 < S192x4096.numel
  inb_S128x4096_S128x4096_0_0 : ∀ a, (![0, 0] : Fin 2 → Nat) a + S128x4096.size a ≤ S128x4096.size a
  h_S128x4096 : 0 < S128x4096.numel
  reduces_S128x4096_S128 : S128x4096.Reduces [1] S128
  shapeCasts_S128_S128x1 : S128.ShapeCasts S128x1
  broadcasts_S128x1_S128x4096 : S128x1.Broadcasts S128x4096
  packedbf16_S128x4096_S128x4096_0_0 : (Rect.unit (s := S128x4096) ![0, 0] S128x4096.size inb_S128x4096_S128x4096_0_0).PackedRows (EltTy.packing .bf16)
  shapeCasts_S4x2048x4096_S8192x4096 : S4x2048x4096.ShapeCasts S8192x4096
  shapeCasts_S11008_S1x11008 : S11008.ShapeCasts S1x11008
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  shapeCasts_S8192x11008_S4x2048x11008 : S8192x11008.ShapeCasts S4x2048x11008
  dot_S128x192_S192x4096_S128x4096_1_0_0_1_n_n_wf : DotDims.WF S128x192 S192x4096 S128x4096 [1] [0] [0] [1] [] []
  dot_S512x4096_S256x4096_S512x256_1_1_0_0_n_n_wf : DotDims.WF S512x4096 S256x4096 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S11008x4096.size a
  hwx0_0 : ∀ i : grid0.Coords, EltTy.bits .f32 = 32 ∨ (Rect.block (s := S11008x4096) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x192.size a ≤ S11008x192.size a
  hwx0_1 : ∀ i : grid0.Coords, EltTy.bits .f32 = 32 ∨ (Rect.block (s := S11008x192) S128x192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S192x4096.size a ≤ S192x4096.size a
  hwx0_2 : ∀ i : grid0.Coords, EltTy.bits .f32 = 32 ∨ (Rect.block (s := S192x4096) S192x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S11008x4096.size a
  hwx0_3 : ∀ i : grid0.Coords, EltTy.bits .bf16 = 32 ∨ (Rect.block (s := S11008x4096) S128x4096.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S8192x4096.size a
  hwx1_0 : ∀ i : grid1.Coords, EltTy.bits .f32 = 32 ∨ (Rect.block (s := S8192x4096) S512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S11008x4096.size a
  hwx1_1 : ∀ i : grid1.Coords, EltTy.bits .bf16 = 32 ∨ (Rect.block (s := S11008x4096) S256x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x11008.size a
  hwx1_2 : ∀ i : grid1.Coords, EltTy.bits .f32 = 32 ∨ (Rect.block (s := S1x11008) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x256.size a ≤ S8192x11008.size a
  hwx1_3 : ∀ i : grid1.Coords, EltTy.bits .f32 = 32 ∨ (Rect.block (s := S8192x11008) S512x256.size (cc1_transform_3 i) (hinb1_3 i)).WholeWords (EltTy.packing .f32)

variable [Facts₀]

def dot_S128x192_S192x4096_S128x4096_1_0_0_1_n_n : DotDims S128x192 S192x4096 S128x4096 where
  lhsContracting := [1]
  rhsContracting := [0]
  lhsNonContracting := [0]
  rhsNonContracting := [1]
  lhsBatch := []
  rhsBatch := []
  wf := dot_S128x192_S192x4096_S128x4096_1_0_0_1_n_n_wf
def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf

abbrev win0_0 : Pipeline.Window sig grid0 :=
  Pipeline.Window.ofSpec (Memref.whole main_arg1) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S192x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S512x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S11008x192 : Shape := ⟨2, ![11008, 192]⟩
abbrev S192x4096 : Shape := ⟨2, ![192, 4096]⟩
abbrev S11008 : Shape := ⟨1, ![11008]⟩
abbrev S_ : Shape := ⟨0, ![]⟩
abbrev S11008x1 : Shape := ⟨2, ![11008, 1]⟩
abbrev S4x2048x11008 : Shape := ⟨3, ![4, 2048, 11008]⟩
abbrev S1x1x11008 : Shape := ⟨3, ![1, 1, 11008]⟩

abbrev nBuf : Space → Nat
  | .hbm => 50
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S11008x192, .f32⟩
  | .hbm, ⟨3, _⟩ => ⟨S192x4096, .f32⟩
  | .hbm, ⟨4, _⟩ => ⟨S11008, .f32⟩
  | .hbm, ⟨5, _⟩ => ⟨S11008x4096, .f32⟩
  | .hbm, ⟨6, _⟩ => ⟨S11008x4096, .f32⟩
  | .hbm, ⟨7, _⟩ => ⟨S_, .f32⟩
  | .hbm, ⟨8, _⟩ => ⟨S11008, .f32⟩
  | .hbm, ⟨9, _⟩ => ⟨S11008x1, .f32⟩
  | .hbm, ⟨10, _⟩ => ⟨S_, .f32⟩
  | .hbm, ⟨11, _⟩ => ⟨S11008x1, .f32⟩
  | .hbm, ⟨12, _⟩ => ⟨S11008x1, .f32⟩
  | .hbm, ⟨13, _⟩ => ⟨S_, .f32⟩
  | .hbm, ⟨14, _⟩ => ⟨S11008, .f32⟩
  | .hbm, ⟨15, _⟩ => ⟨S11008x1, .f32⟩
  | .hbm, ⟨16, _⟩ => ⟨S_, .f32⟩
  | .hbm, ⟨17, _⟩ => ⟨S11008x1, .f32⟩
  | .hbm, ⟨18, _⟩ => ⟨S11008x1, .f32⟩
  | .hbm, ⟨19, _⟩ => ⟨S11008x1, .f32⟩
  | .hbm, ⟨20, _⟩ => ⟨S_, .f32⟩
  | .hbm, ⟨21, _⟩ => ⟨S11008x1, .f32⟩
  | .hbm, ⟨22, _⟩ => ⟨S11008x1, .f32⟩
  | .hbm, ⟨23, _⟩ => ⟨S_, .f32⟩
  | .hbm, ⟨24, _⟩ => ⟨S11008x1, .f32⟩
  | .hbm, ⟨25, _⟩ => ⟨S11008x1, .f32⟩
  | .hbm, ⟨26, _⟩ => ⟨S11008x1, .f32⟩
  | .hbm, ⟨27, _⟩ => ⟨S11008x1, .f32⟩
  | .hbm, ⟨28, _⟩ => ⟨S11008x1, .f32⟩
  | .hbm, ⟨29, _⟩ => ⟨S11008x4096, .f32⟩
  | .hbm, ⟨30, _⟩ => ⟨S11008x4096, .f32⟩
  | .hbm, ⟨31, _⟩ => ⟨S11008x4096, .f32⟩
  | .hbm, ⟨32, _⟩ => ⟨S11008x4096, .f32⟩
  | .hbm, ⟨33, _⟩ => ⟨S11008x4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S11008x4096, .f32⟩
  | .hbm, ⟨38, _⟩ => ⟨S11008x4096, .f32⟩
  | .hbm, ⟨39, _⟩ => ⟨S_, .f32⟩
  | .hbm, ⟨40, _⟩ => ⟨S11008x4096, .f32⟩
  | .hbm, ⟨41, _⟩ => ⟨S11008x4096, .f32⟩
  | .hbm, ⟨42, _⟩ => ⟨S11008x4096, .f32⟩
  | .hbm, ⟨43, _⟩ => ⟨S11008x4096, .f32⟩
  | .hbm, ⟨44, _⟩ => ⟨S11008x4096, .f32⟩
  | .hbm, ⟨45, _⟩ => ⟨S11008x4096, .f32⟩
  | .hbm, ⟨46, _⟩ => ⟨S4x2048x11008, .f32⟩
  | .hbm, ⟨47, _⟩ => ⟨S1x1x11008, .f32⟩
  | .hbm, ⟨48, _⟩ => ⟨S4x2048x11008, .f32⟩
  | .hbm, ⟨49, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_cst_6 : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]

class Facts₀ : Prop where
  reducesTo_S11008x4096_S11008_d1 : S11008x4096.ReducesTo [1] S11008
  h_S_ : 0 < S_.numel
  bcast_S11008_S11008x1_0 : S11008.BroadcastsInDim S11008x1 (![0] : Fin 1 → Fin S11008x1.rank)
  bcast_S_S11008x1 : S_.BroadcastsInDim S11008x1 (![] : Fin 0 → Fin S11008x1.rank)
  bcast_S11008x1_S11008x4096_0_1 : S11008x1.BroadcastsInDim S11008x4096 (![0, 1] : Fin 2 → Fin S11008x4096.rank)
  bcast_S_S11008x4096 : S_.BroadcastsInDim S11008x4096 (![] : Fin 0 → Fin S11008x4096.rank)
  bcast_S11008_S1x1x11008_2 : S11008.BroadcastsInDim S1x1x11008 (![2] : Fin 1 → Fin S1x1x11008.rank)
  bcast_S1x1x11008_S4x2048x11008_0_1_2 : S1x1x11008.BroadcastsInDim S4x2048x11008 (![0, 1, 2] : Fin 3 → Fin S4x2048x11008.rank)
  dot_S11008x192_S192x4096_S11008x4096_1_0_0_1_n_n_wf : DotDims.WF S11008x192 S192x4096 S11008x4096 [1] [0] [0] [1] [] []
  dot_S4x2048x4096_S11008x4096_S4x2048x11008_2_1_01_0_n_n_wf : DotDims.WF S4x2048x4096 S11008x4096 S4x2048x11008 [2] [1] [0, 1] [0] [] []

variable [Facts₀]

def dot_S11008x192_S192x4096_S11008x4096_1_0_0_1_n_n : DotDims S11008x192 S192x4096 S11008x4096 where
  lhsContracting := [1]
  rhsContracting := [0]
  lhsNonContracting := [0]
  rhsNonContracting := [1]
  lhsBatch := []
  rhsBatch := []
  wf := dot_S11008x192_S192x4096_S11008x4096_1_0_0_1_n_n_wf
def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.Spec.lean ====
/-
  What both programs compute, as plain functions on the extended reals.

  A weight row is composed from a base row and a rank-192 product; the row is then fake-quantised to sixteen
  levels: its range, widened to contain 0, is cut into fifteen steps (a step never smaller than a fixed floor), the
  zero point is the rounded position of 0, every entry is rounded to a level, clamped to [0, 15], and mapped back.
  The result is a linear layer: each output entry is the sum over the 4096 inputs of an activation times the
  quantised weight, plus a bias. Rounding is to nearest with ties to even; division is the extended reals' total one.
  The words of 15, of the step's floor and of the two infinities are kept as words: both programs carry the same ones.
-/
import Idealize.ShloMosaic.PureOps.Ideal
import Idealize.ShloMosaic.PureOps.Ideal.Laws
import Idealize.ShloMosaic.Lib.ValueIdx

noncomputable section

open scoped BigOperators

namespace Cert.QuantLinear

open Idealize.ShloMosaic Idealize.ShloMosaic.ValueIdx

/-- The top level, 15, as its f32 word. -/
def qmax : EReal := Ideal.ofBits .f32 0x41700000#32
/-- The floor under the step (the f32 nearest 1e-8), as its word. -/
def stepFloor : EReal := Ideal.ofBits .f32 0x322BCC77#32
/-- Rounding to the nearest integer, ties to even; the infinities stay. -/
def rne (x : EReal) : EReal := Ideal.liftRound Ideal.roundHalfEven x

/-- Entry (o, i) of the composed weight: the base weight plus row o of the down factor against column i of the up factor. -/
def composed (w : (⟨2, ![11008, 4096]⟩ : Shape).Idx → EReal) (bd : (⟨2, ![11008, 192]⟩ : Shape).Idx → EReal)
    (bu : (⟨2, ![192, 4096]⟩ : Shape).Idx → EReal) (o : Fin 11008) (i : Fin 4096) : EReal :=
  w (ix2 o i) + ∑ k : Fin 192, bd (ix2 o k) * bu (ix2 k i)

section Row
variable (r : Fin 4096 → EReal)

/-- The smaller of the row's minimum (a fold from +∞) and 0. -/
def lo : EReal := min ((Finset.univ : Finset (Fin 4096)).fold min (Ideal.ofBits .f32 0x7F800000#32) r) 0
/-- The larger of the row's maximum (a fold from -∞) and 0. -/
def hi : EReal := max ((Finset.univ : Finset (Fin 4096)).fold max (Ideal.ofBits .f32 0xFF800000#32) r) 0
/-- The quantisation step: a fifteenth of the range, never below the floor. -/
def step : EReal := max (Ideal.div (hi r - lo r) qmax) stepFloor
/-- The level that stands for 0. -/
def zeroPt : EReal := rne (Ideal.div (-(lo r)) (step r))
/-- Entry i of the row after quantising to a level in [0, 15] and mapping the level back. -/
def fakeQuant (i : Fin 4096) : EReal :=
  (min qmax (max 0 (rne (Ideal.div (r i) (step r)) + zeroPt r)) - zeroPt r) * step r

end Row

/-- Entry (o, i) of the quantised composed weight. -/
def qweight (w : (⟨2, ![11008, 4096]⟩ : Shape).Idx → EReal) (bd : (⟨2, ![11008, 192]⟩ : Shape).Idx → EReal)
    (bu : (⟨2, ![192, 4096]⟩ : Shape).Idx → EReal) (o : Fin 11008) (i : Fin 4096) : EReal :=
  fakeQuant (composed w bd bu o) i

/-- The quantised composed weight as an array. -/
def qweightArr (w : (⟨2, ![11008, 4096]⟩ : Shape).Idx → EReal) (bd : (⟨2, ![11008, 192]⟩ : Shape).Idx → EReal)
    (bu : (⟨2, ![192, 4096]⟩ : Shape).Idx → EReal) : (⟨2, ![11008, 4096]⟩ : Shape).Idx → EReal :=
  fun j => qweight w bd bu (j 0) (j 1)

/-- A linear layer on flattened rows: entry (r, o) is row r of the activations against row o of the weight, plus the bias at o. -/
def linear2 (x : (⟨2, ![8192, 4096]⟩ : Shape).Idx → EReal) (q : (⟨2, ![11008, 4096]⟩ : Shape).Idx → EReal)
    (b : (⟨2, ![1, 11008]⟩ : Shape).Idx → EReal) : (⟨2, ![8192, 11008]⟩ : Shape).Idx → EReal :=
  fun j => (∑ k : Fin 4096, x (ix2 (j 0) k) * q (ix2 (j 1) k)) + b (ix2 (0 : Fin 1) (j 1))

/-- The whole layer: entry (b, s, o) of the result. -/
def result (x : (⟨3, ![4, 2048, 4096]⟩ : Shape).Idx → EReal) (w : (⟨2, ![11008, 4096]⟩ : Shape).Idx → EReal)
    (bd : (⟨2, ![11008, 192]⟩ : Shape).Idx → EReal) (bu : (⟨2, ![192, 4096]⟩ : Shape).Idx → EReal)
    (bias : (⟨1, ![11008]⟩ : Shape).Idx → EReal) : (⟨3, ![4, 2048, 11008]⟩ : Shape).Idx → EReal :=
  fun j => (∑ k : Fin 4096, x (ix3 (j 0) (j 1) k) * qweight w bd bu (j 2) k) + bias (ix1 (j 2))

end Cert.QuantLinear

end
-- ==== Proof.QuantRegion.lean ====
/-
  The first kernel region: each grid point composes and quantises one block of 128 weight rows; the 86 blocks tile the
  [11008, 4096] array, which therefore ends holding the quantised composed weight, entry by entry.

  The payload at an entry (p, q) of a block is read operation by operation: the block product is a sum over the 192
  contracted coordinates, a row's minimum and maximum are folds over its 4096 entries, the [128] → [128, 1] cast and the
  [128, 1] → [128, 4096] broadcast carry a row's quantity to each of its entries, and what is left is the specification's
  fake quantisation of the composed row. Each block is then read where its rectangle lies in its array, and the blocks'
  rows cover the array.
-/
import proofs.«148148_j27273042330117_1_alg».proof.Proof.Gen.KernelIdeal.Frame
import proofs.«148148_j27273042330117_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.QuantRegion

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.QuantLinear

/-! ## The block product at an entry -/

/-- Left operand's row coordinate under the product's dimension numbers. -/
theorem lhs_ax0 (i : S128x4096.Idx) (q : dot_S128x192_S192x4096_S128x4096_1_0_0_1_n_n.contr.Idx) :
    (dot_S128x192_S192x4096_S128x4096_1_0_0_1_n_n.lhsIdx i q 0).val = (i 0).val := by
  unfold DotDims.lhsIdx
  rw [dif_neg (show ¬(0 : Fin S128x192.rank) ∈ dot_S128x192_S192x4096_S128x4096_1_0_0_1_n_n.lhsBatch by decide), dif_pos (show (0 : Fin S128x192.rank) ∈ dot_S128x192_S192x4096_S128x4096_1_0_0_1_n_n.lhsNonContracting by decide)]
  rfl
theorem lhs_ax1 (i : S128x4096.Idx) (q : dot_S128x192_S192x4096_S128x4096_1_0_0_1_n_n.contr.Idx) :
    (dot_S128x192_S192x4096_S128x4096_1_0_0_1_n_n.lhsIdx i q 1).val = (q ⟨0, by decide⟩).val :=
  dot_S128x192_S192x4096_S128x4096_1_0_0_1_n_n.lhsIdx_val_of_single rfl i q
theorem rhs_ax0 (i : S128x4096.Idx) (q : dot_S128x192_S192x4096_S128x4096_1_0_0_1_n_n.contr.Idx) :
    (dot_S128x192_S192x4096_S128x4096_1_0_0_1_n_n.rhsIdx i q 0).val = (q ⟨0, by decide⟩).val :=
  dot_S128x192_S192x4096_S128x4096_1_0_0_1_n_n.rhsIdx_val_of_single rfl i q
theorem rhs_ax1 (i : S128x4096.Idx) (q : dot_S128x192_S192x4096_S128x4096_1_0_0_1_n_n.contr.Idx) :
    (dot_S128x192_S192x4096_S128x4096_1_0_0_1_n_n.rhsIdx i q 1).val = (i 1).val := by
  unfold DotDims.rhsIdx
  rw [dif_neg (show ¬(1 : Fin S192x4096.rank) ∈ dot_S128x192_S192x4096_S128x4096_1_0_0_1_n_n.rhsBatch by decide), dif_pos (show (1 : Fin S192x4096.rank) ∈ dot_S128x192_S192x4096_S128x4096_1_0_0_1_n_n.rhsNonContracting by decide)]
  rfl

/-- The block product into a zero accumulator, read at (p, q): row p of the left block against column q of the right. -/
theorem blockProduct_apply (a : FVec Ideal S128x192 .bf16) (b : FVec Ideal S192x4096 .bf16) (p : Fin 128) (q : Fin 4096) :
    matmul dot_S128x192_S192x4096_S128x4096_1_0_0_1_n_n none a b (constant (F := Ideal) S128x4096 .f32 0x00000000#32) (ix2 p q)
      = ∑ k : Fin 192, a (ix2 p k) * b (ix2 k q) := by
  simp only [matmul]
  rw [Ideal.matmul_constant_zero_apply, ← Equiv.sum_comp (contrEquiv1 dot_S128x192_S192x4096_S128x4096_1_0_0_1_n_n 192 rfl rfl).symm]
  refine Finset.sum_congr rfl fun k _ => ?_
  have hk := contrEquiv1_symm_val dot_S128x192_S192x4096_S128x4096_1_0_0_1_n_n 192 rfl rfl k
  have el : dot_S128x192_S192x4096_S128x4096_1_0_0_1_n_n.lhsIdx (ix2 p q) ((contrEquiv1 dot_S128x192_S192x4096_S128x4096_1_0_0_1_n_n 192 rfl rfl).symm k) = ix2 p k := funext fun a => Fin.ext (by
    match a with
    | ⟨0, _⟩ => exact lhs_ax0 _ _
    | ⟨1, _⟩ => exact (lhs_ax1 _ _).trans hk)
  have er : dot_S128x192_S192x4096_S128x4096_1_0_0_1_n_n.rhsIdx (ix2 p q) ((contrEquiv1 dot_S128x192_S192x4096_S128x4096_1_0_0_1_n_n 192 rfl rfl).symm k) = ix2 k q := funext fun a => Fin.ext (by
    match a with
    | ⟨0, _⟩ => exact (rhs_ax0 _ _).trans hk
    | ⟨1, _⟩ => exact rhs_ax1 _ _)
  rw [el, er]

/-! ## Row reductions, the column cast and the broadcast along the rows -/

/-- Inserting coordinate k on the reduced axis over the row index p gives (p, k). -/
theorem lift_row (p : Fin 128) (k : Fin 4096) :
    reduces_S128x4096_S128.lift (ix1 p) k = ix2 p k :=
  funext fun a => Fin.ext (by
    match a with
    | ⟨0, _⟩ => rfl
    | ⟨1, _⟩ => rfl)

/-- A row's minimum: the fold of min from the accumulator's word over the row's 4096 entries. -/
theorem rowMin_apply (W : FVec Ideal S128x4096 .f32) (p : Fin 128) (hφ : FTy.f32 = FTy.f32 ∨ FTy.f32 = FTy.bf16)
    (hacc : (0x7F800000#32 : BitVec 32) = 0x7F800000#32) :
    multiReduction (F := Ideal) .minimumf [1] S128 W 0x7F800000#32 reduces_S128x4096_S128 hφ hacc (ix1 p)
      = (Finset.univ : Finset (Fin 4096)).fold min (Ideal.ofBits .f32 0x7F800000#32) (fun i => W (ix2 p i)) := by
  refine (multiReduction_minimumf_eq_fold W 0x7F800000#32 reduces_S128x4096_S128 hφ hacc (ix1 p)).trans ?_
  refine (reduces_S128x4096_S128.fold_filter_drop_single _ _ W (ix1 p)).trans ?_
  show (Finset.univ : Finset (Fin 4096)).fold min (Ideal.ofBits .f32 0x7F800000#32) (W ∘ reduces_S128x4096_S128.lift (ix1 p)) = _
  congr 1
  exact funext fun k => congrArg W (lift_row p k)

/-- A row's maximum likewise. -/
theorem rowMax_apply (W : FVec Ideal S128x4096 .f32) (p : Fin 128) (hφ : FTy.f32 = FTy.f32 ∨ FTy.f32 = FTy.bf16)
    (hacc : (0xFF800000#32 : BitVec 32) = 0xFF800000#32) :
    multiReduction (F := Ideal) .maximumf [1] S128 W 0xFF800000#32 reduces_S128x4096_S128 hφ hacc (ix1 p)
      = (Finset.univ : Finset (Fin 4096)).fold max (Ideal.ofBits .f32 0xFF800000#32) (fun i => W (ix2 p i)) := by
  refine (multiReduction_maximumf_eq_fold W 0xFF800000#32 reduces_S128x4096_S128 hφ hacc (ix1 p)).trans ?_
  refine (reduces_S128x4096_S128.fold_filter_drop_single _ _ W (ix1 p)).trans ?_
  show (Finset.univ : Finset (Fin 4096)).fold max (Ideal.ofBits .f32 0xFF800000#32) (W ∘ reduces_S128x4096_S128.lift (ix1 p)) = _
  congr 1
  exact funext fun k => congrArg W (lift_row p k)

/-- A column vector made from a vector: entry (p, u) of the [128, 1] cast is entry p. -/
theorem column_apply {α : Type} (x : S128.Idx → α) (p : Fin 128) (u : Fin 1) :
    shapeCast S128x1 x shapeCasts_S128_S128x1 (ix2 p u) = x (ix1 p) :=
  shapeCast_apply x shapeCasts_S128_S128x1 _ _ (by
    have hu : u.val = 0 := by omega
    rw [Shape.rowMajor_val_two, Shape.rowMajor_val_one]
    show p.val = p.val * 1 + u.val
    rw [hu, Nat.mul_one, Nat.add_zero])

/-- A column broadcast along the rows: entry (p, q) of the [128, 4096] broadcast is the column's entry (p, 0). -/
theorem alongRow_apply {α : Type} (v : S128x1.Idx → α) (p : Fin 128) (q : Fin 4096) :
    broadcastTo S128x4096 v broadcasts_S128x1_S128x4096 (ix2 p q) = v (ix2 p (0 : Fin 1)) := by
  refine broadcastTo_apply v broadcasts_S128x1_S128x4096 (ix2 p q) (ix2 p (0 : Fin 1)) fun ax => ?_
  match ax with
  | ⟨0, _⟩ => rfl
  | ⟨1, _⟩ => rfl

/-! ## The payload at an entry -/

/-- Rounding to even, entry by entry. -/
theorem roundeven_apply {s : Shape} {φ : FTy} (a : FVec Ideal s φ) (i : s.Idx) :
    roundeven a i = Ideal.liftRound Ideal.roundHalfEven (a i) := rfl

set_option maxHeartbeats 400000 in
/-- THE PAYLOAD AT (p, q): the fake-quantised entry q of row p of the composed block. -/
theorem payload_apply (x1 : Vec Ideal S128x192 .f32) (x2 : Vec Ideal S192x4096 .f32) (x0 : Vec Ideal S128x4096 .f32)
    (p : Fin 128) (q : Fin 4096) :
    k0_pay1 (F := Ideal) x1 x2 x0 (ix2 p q)
      = fakeQuant (fun i => x0 (ix2 p i) + ∑ k : Fin 192, x1 (ix2 p k) * x2 (ix2 k i)) q := by
  unfold k0_pay1
  -- the pointwise operations, the column casts and the broadcasts along the rows, read at (p, q)
  simp only [truncf_apply, mulf_apply, subf_apply, addf_apply, divf_apply, maximumf_apply, minimumf_apply, broadcast_apply,
    roundeven_apply, alongRow_apply, column_apply, blockProduct_apply]
  -- the two row reductions, over the composed block as one vector
  generalize hW : (addf x0 (matmul dot_S128x192_S192x4096_S128x4096_1_0_0_1_n_n none (truncf .bf16 x1 bitsLt_bf16_f32) (truncf .bf16 x2 bitsLt_bf16_f32)
        (constant (F := Ideal) S128x4096 .f32 0x00000000#32))) = W
  rw [rowMin_apply, rowMax_apply]
  subst hW
  simp only [addf_apply, blockProduct_apply, truncf_apply]
  -- the specification's row quantities, spelt out; the kernel's 0 - lo is the specification's -lo
  unfold fakeQuant zeroPt step lo hi qmax stepFloor rne
  simp only [Ideal.ofBits_def, Ideal.ofBits_zero_f32, zero_sub]

/-! ## From the blocks to the array -/

variable (V : (c : Dev nD) → (b : Ref sig .tc) → Buf (Elt Ideal) ((c : Thread nD τ).loc b))

/-- Every access of the body starts at the origin of its buffer. -/
theorem origin : (![0, 0] : Fin 2 → Nat) = fun _ => 0 := funext fun a => by fin_cases a <;> rfl

/-- The block indices over the grid: at point t the weight, down-factor and output blocks are block row t, the up factor
    is its one block. -/
theorem blockIndex : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT t WRITES BACK: block row t of the quantised composed weight of the three arrays as the region found them. -/
theorem flushed_eq (c : Dev nD) (t : Fin cfg0.N) :
    (dat0 (F := Ideal) V c).flushed 3 t
      = ((cfg0.win 3).blk t).view.read (Elt Ideal) (qweightArr (V c main_arg1) (V c main_arg2) (V c main_arg3)) := by
  show (cfg0.win 3).cut (grid0.coords t) ((dat0 V c).after 3 t) = _
  rw [after0_3]
  unfold out0_3
  rw [View.canon_unit_zero origin]
  simp only [View.ld_unit_zero (S := S128x192) origin, View.ld_unit_zero (S := S192x4096) origin, View.ld_unit_zero (S := S128x4096) origin]
  obtain ⟨e00, e01, e10, e11, e20, e21, e30, e31⟩ := blockIndex t
  have ht : t.val < 86 := lt_of_lt_of_eq t.isLt N_0
  refine funext fun (j : S128x4096.Idx) => ?_
  obtain ⟨p, q, rfl⟩ : ∃ (p : Fin 128) (q : Fin 4096), j = ix2 p q := ⟨j 0, j 1, eq_ix2 j⟩
  -- the payload at (p, q), over the three blocks
  refine (payload_apply _ _ _ p q).trans ?_
  -- row p of block row t is row o of the arrays
  have ho : t.val * 128 + p.val < 11008 := by have := p.isLt; omega
  have hemb : ((cfg0.win 3).blk t).view.emb (ix2 p q) = ix2 (⟨t.val * 128 + p.val, ho⟩ : Fin 11008) q := by
    funext a; apply Fin.ext
    match a with
    | ⟨0, _⟩ => show win0_3.index t (0 : Fin 2) * 128 + 1 * p.val = t.val * 128 + p.val; omega
    | ⟨1, _⟩ => show win0_3.index t (1 : Fin 2) * 4096 + 1 * q.val = q.val; omega
  refine Eq.trans ?_ (congrArg (qweightArr (V c main_arg1) (V c main_arg2) (V c main_arg3)) hemb).symm
  show fakeQuant _ q = fakeQuant (composed (V c main_arg1) (V c main_arg2) (V c main_arg3) ⟨t.val * 128 + p.val, ho⟩) q
  refine congrArg (fun r => fakeQuant r q) (funext fun i => ?_)
  have h0 : iblk0 V c 0 t (ix2 p i) = V c main_arg1 (ix2 (⟨t.val * 128 + p.val, ho⟩ : Fin 11008) i) := by
    show V c main_arg1 (((cfg0.win 0).blk t).view.emb (ix2 p i)) = _
    refine congrArg (V c main_arg1) (funext fun a => Fin.ext ?_)
    match a with
    | ⟨0, _⟩ => show win0_0.index t (0 : Fin 2) * 128 + 1 * p.val = t.val * 128 + p.val; omega
    | ⟨1, _⟩ => show win0_0.index t (1 : Fin 2) * 4096 + 1 * i.val = i.val; omega
  have h1 : ∀ k : Fin 192, iblk0 V c 1 t (ix2 p k) = V c main_arg2 (ix2 (⟨t.val * 128 + p.val, ho⟩ : Fin 11008) k) := fun k => by
    show V c main_arg2 (((cfg0.win 1).blk t).view.emb (ix2 p k)) = _
    refine congrArg (V c main_arg2) (funext fun a => Fin.ext ?_)
    match a with
    | ⟨0, _⟩ => show win0_1.index t (0 : Fin 2) * 128 + 1 * p.val = t.val * 128 + p.val; omega
    | ⟨1, _⟩ => show win0_1.index t (1 : Fin 2) * 192 + 1 * k.val = k.val; omega
  have h2 : ∀ k : Fin 192, iblk0 V c 2 t (ix2 k i) = V c main_arg3 (ix2 k i) := fun k => by
    show V c main_arg3 (((cfg0.win 2).blk t).view.emb (ix2 k i)) = _
    refine congrArg (V c main_arg3) (funext fun a => Fin.ext ?_)
    match a with
    | ⟨0, _⟩ => show win0_2.index t (0 : Fin 2) * 192 + 1 * k.val = k.val; omega
    | ⟨1, _⟩ => show win0_2.index t (1 : Fin 2) * 4096 + 1 * i.val = i.val; omega
  exact congrArg₂ (· + ·) h0 (Finset.sum_congr rfl fun k _ => congrArg₂ (· * ·) (h1 k) (h2 k))

/-- An index of the array is in point t's block iff each coordinate is in the block's range on its axis. -/
theorem mem_block (t : Fin cfg0.N) (i : S11008x4096.Idx) :
    i ∈ ((cfg0.win 3).blk t).view.set ↔ ∀ a : Fin 2, win0_3.index t a * S128x4096.size a ≤ (i a).val ∧ (i a).val < win0_3.index t a * S128x4096.size a + S128x4096.size a := by
  show i ∈ ((View.whole main_v0).slice (win0_3.rect t)).set ↔ _
  rw [View.set_slice_whole, Rect.mem_set_unit]
  exact Iff.rfl

/-- THE COVER: row o of the array lies in the block of point o / 128. -/
theorem cover (i : S11008x4096.Idx) :
    ∃ t : Fin cfg0.N, (cfg0.win 3).flush t = true ∧ i ∈ ((cfg0.win 3).blk t).view.set := by
  have hi0 : (i 0).val < 11008 := (i 0).isLt
  have hi1 : (i 1).val < 4096 := (i 1).isLt
  have hN : (i 0).val / 128 < grid0.N := by rw [N_0]; omega
  obtain ⟨-, -, -, -, -, -, e30, e31⟩ := blockIndex ⟨(i 0).val / 128, hN⟩
  refine ⟨⟨(i 0).val / 128, hN⟩, flush0_3 _, ?_⟩
  rw [mem_block]
  intro a
  match a with
  | ⟨0, _⟩ =>
    show win0_3.index ⟨(i 0).val / 128, hN⟩ (0 : Fin 2) * 128 ≤ (i 0).val ∧ (i 0).val < win0_3.index ⟨(i 0).val / 128, hN⟩ (0 : Fin 2) * 128 + 128
    rw [e30]
    show (i 0).val / 128 * 128 ≤ (i 0).val ∧ (i 0).val < (i 0).val / 128 * 128 + 128
    omega
  | ⟨1, _⟩ =>
    show win0_3.index ⟨(i 0).val / 128, hN⟩ (1 : Fin 2) * 4096 ≤ (i 1).val ∧ (i 1).val < win0_3.index ⟨(i 0).val / 128, hN⟩ (1 : Fin 2) * 4096 + 4096
    omega

/-- After the region's last write-back the output array is the quantised composed weight of the three input arrays as
    the region found them. -/
theorem quant_array (c : Dev nD) :
    (dat0 (F := Ideal) V c).arrAt 3 cfg0.N = qweightArr (V c main_arg1) (V c main_arg2) (V c main_arg3) :=
  (dat0 (F := Ideal) V c).arrAt_eq_of_cover 3 (qweightArr (V c main_arg1) (V c main_arg2) (V c main_arg3))
    (fun t _ => flushed_eq V c t) cover

end Cert.KernelIdeal.QuantRegion

end
-- ==== Proof.MatmulRegion.lean ====
/-
  The second kernel region: grid point (i, j) multiplies a block of 512 activation rows against a block of 256 weight
  rows, contracting all 4096 inputs at once, and adds the bias block; the 16 × 43 blocks tile the [8192, 11008] array,
  which therefore ends holding the linear layer on flattened rows, entry by entry.
-/
import proofs.«148148_j27273042330117_1_alg».proof.Proof.Gen.KernelIdeal.Frame
import proofs.«148148_j27273042330117_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.MatmulRegion

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.QuantLinear

variable (V : (c : Dev nD) → (b : Ref sig .tc) → Buf (Elt Ideal) ((c : Thread nD τ).loc b))

/-- The left operand's row is the output's row. -/
theorem lhs_row (i : S512x256.Idx) (q : dot_S512x4096_S256x4096_S512x256_1_1_0_0_n_n.contr.Idx) :
    (dot_S512x4096_S256x4096_S512x256_1_1_0_0_n_n.lhsIdx i q 0).val = (i 0).val := by
  unfold DotDims.lhsIdx
  rw [dif_neg (show ¬(0 : Fin S512x4096.rank) ∈ dot_S512x4096_S256x4096_S512x256_1_1_0_0_n_n.lhsBatch by decide), dif_pos (show (0 : Fin S512x4096.rank) ∈ dot_S512x4096_S256x4096_S512x256_1_1_0_0_n_n.lhsNonContracting by decide)]
  rfl
/-- The left operand's column is the contraction coordinate. -/
theorem lhs_col (i : S512x256.Idx) (q : dot_S512x4096_S256x4096_S512x256_1_1_0_0_n_n.contr.Idx) :
    (dot_S512x4096_S256x4096_S512x256_1_1_0_0_n_n.lhsIdx i q 1).val = (q ⟨0, by decide⟩).val :=
  dot_S512x4096_S256x4096_S512x256_1_1_0_0_n_n.lhsIdx_val_of_single rfl i q
/-- The right operand's row is the output's column. -/
theorem rhs_row (i : S512x256.Idx) (q : dot_S512x4096_S256x4096_S512x256_1_1_0_0_n_n.contr.Idx) :
    (dot_S512x4096_S256x4096_S512x256_1_1_0_0_n_n.rhsIdx i q 0).val = (i 1).val := by
  unfold DotDims.rhsIdx
  rw [dif_neg (show ¬(0 : Fin S256x4096.rank) ∈ dot_S512x4096_S256x4096_S512x256_1_1_0_0_n_n.rhsBatch by decide), dif_pos (show (0 : Fin S256x4096.rank) ∈ dot_S512x4096_S256x4096_S512x256_1_1_0_0_n_n.rhsNonContracting by decide)]
  rfl
/-- The right operand's column is the contraction coordinate. -/
theorem rhs_col (i : S512x256.Idx) (q : dot_S512x4096_S256x4096_S512x256_1_1_0_0_n_n.contr.Idx) :
    (dot_S512x4096_S256x4096_S512x256_1_1_0_0_n_n.rhsIdx i q 1).val = (q ⟨0, by decide⟩).val :=
  dot_S512x4096_S256x4096_S512x256_1_1_0_0_n_n.rhsIdx_val_of_single rfl i q

set_option maxHeartbeats 400000 in
/-- One entry of the body's result: row p of the activation block against row q of the weight block, summed over the
    4096 inputs, plus entry q of the bias block. -/
theorem payload_apply (x : Vec Ideal S512x4096 .f32) (w : Vec Ideal S256x4096 .bf16) (b : Vec Ideal S1x256 .f32)
    (p : Fin 512) (q : Fin 256) :
    k1_pay1 (F := Ideal) x w b (ix2 p q) = (∑ k : Fin 4096, x (ix2 p k) * w (ix2 q k)) + b (ix2 (0 : Fin 1) q) := by
  unfold k1_pay1
  rw [shapeCast_self, shapeCast_self, shapeCast_self, addf_apply]
  refine congrArg₂ (· + ·) ?_ ?_
  · simp only [matmul]
    rw [Ideal.matmul_constant_zero_apply, ← Equiv.sum_comp (contrEquiv1 dot_S512x4096_S256x4096_S512x256_1_1_0_0_n_n 4096 rfl rfl).symm]
    refine Finset.sum_congr rfl fun k _ => ?_
    have hk := contrEquiv1_symm_val dot_S512x4096_S256x4096_S512x256_1_1_0_0_n_n 4096 rfl rfl k
    have el : dot_S512x4096_S256x4096_S512x256_1_1_0_0_n_n.lhsIdx (ix2 p q) ((contrEquiv1 dot_S512x4096_S256x4096_S512x256_1_1_0_0_n_n 4096 rfl rfl).symm k) = ix2 p k := funext fun a => Fin.ext (by
      match a with
      | ⟨0, _⟩ => exact lhs_row _ _
      | ⟨1, _⟩ => exact (lhs_col _ _).trans hk)
    have er : dot_S512x4096_S256x4096_S512x256_1_1_0_0_n_n.rhsIdx (ix2 p q) ((contrEquiv1 dot_S512x4096_S256x4096_S512x256_1_1_0_0_n_n 4096 rfl rfl).symm k) = ix2 q k := funext fun a => Fin.ext (by
      match a with
      | ⟨0, _⟩ => exact rhs_row _ _
      | ⟨1, _⟩ => exact (rhs_col _ _).trans hk)
    rw [el, er]
    rfl
  · exact broadcastTo_apply b _ (ix2 p q) (ix2 (0 : Fin 1) q) (fun a => by
      match a with
      | ⟨0, _⟩ => rfl
      | ⟨1, _⟩ => rfl)

/-- The two zero offsets, however they are spelt. -/
theorem hz : (![0, 0] : Fin 2 → Nat) = fun _ => 0 := funext fun a => by fin_cases a <;> rfl

/-- The index maps over the grid: the activation block moves with the output's block row, the weight and bias blocks
    with its block column, every other block coordinate is 0, and the output's block coordinates stay in 16 × 43. -/
theorem idx_facts : ∀ t : Fin cfg1.N,
    win1_0.index t (0 : Fin 2) = win1_3.index t (0 : Fin 2)
    ∧ win1_0.index t (1 : Fin 2) = 0
    ∧ win1_1.index t (0 : Fin 2) = win1_3.index t (1 : Fin 2)
    ∧ win1_1.index t (1 : Fin 2) = 0
    ∧ win1_2.index t (0 : Fin 2) = 0
    ∧ win1_2.index t (1 : Fin 2) = win1_3.index t (1 : Fin 2)
    ∧ win1_3.index t (0 : Fin 2) ≤ 15
    ∧ win1_3.index t (1 : Fin 2) ≤ 42 :=
  (by decide +kernel : ∀ t : Fin grid1.N, _)

/-- The grid is walked row by row: point t is block row t / 43, block column t % 43 of the output. -/
theorem idx_closed : ∀ t : Fin cfg1.N,
    win1_3.index t (0 : Fin 2) = t.val / 43 ∧ win1_3.index t (1 : Fin 2) = t.val % 43 :=
  (by decide +kernel : ∀ t : Fin grid1.N, _)

/-- An index of the output array is in point t's block iff each coordinate is in the block's range on its axis. -/
theorem mem_blk (t : Fin cfg1.N) (i : S8192x11008.Idx) :
    i ∈ ((cfg1.win 3).blk t).view.set ↔ ∀ a : Fin 2, win1_3.index t a * S512x256.size a ≤ (i a).val ∧ (i a).val < win1_3.index t a * S512x256.size a + S512x256.size a := by
  show i ∈ ((View.whole main_v3).slice (win1_3.rect t)).set ↔ _
  rw [View.set_slice_whole, Rect.mem_set_unit]
  exact Iff.rfl

/-- The blocks tile the array: entry (r, o) lies in the block of the point in block row r / 512, block column o / 256. -/
theorem cover (i : S8192x11008.Idx) :
    ∃ t : Fin cfg1.N, (cfg1.win 3).flush t = true ∧ i ∈ ((cfg1.win 3).blk t).view.set := by
  have hi0 : (i 0).val < 8192 := (i 0).isLt
  have hi1 : (i 1).val < 11008 := (i 1).isLt
  have hN : (i 0).val / 512 * 43 + (i 1).val / 256 < cfg1.N := by
    show _ < grid1.N
    rw [N_1]; omega
  have q0 : win1_3.index ⟨_, hN⟩ (0 : Fin 2) = ((i 0).val / 512 * 43 + (i 1).val / 256) / 43 := (idx_closed ⟨_, hN⟩).1
  have q1 : win1_3.index ⟨_, hN⟩ (1 : Fin 2) = ((i 0).val / 512 * 43 + (i 1).val / 256) % 43 := (idx_closed ⟨_, hN⟩).2
  refine ⟨⟨_, hN⟩, flush1_3 _, ?_⟩
  rw [mem_blk]
  intro a
  match a with
  | ⟨0, _⟩ =>
    show win1_3.index ⟨_, hN⟩ (0 : Fin 2) * 512 ≤ (i 0).val ∧ (i 0).val < win1_3.index ⟨_, hN⟩ (0 : Fin 2) * 512 + 512
    rw [q0]; omega
  | ⟨1, _⟩ =>
    show win1_3.index ⟨_, hN⟩ (1 : Fin 2) * 256 ≤ (i 1).val ∧ (i 1).val < win1_3.index ⟨_, hN⟩ (1 : Fin 2) * 256 + 256
    rw [q1]; omega

set_option maxHeartbeats 400000 in
/-- What point t writes back is block t of the linear layer of the three arrays: entry (p, q) of the body's result is
    the sum over the inputs of activation row (block row · 512 + p) against weight row (block column · 256 + q), plus
    the bias at that weight row. -/
theorem flushed_eq (c : Dev nD) (t : Fin cfg1.N) :
    (dat1 (F := Ideal) V c).flushed 3 t
      = ((cfg1.win 3).blk t).view.read (Elt Ideal) (linear2 (V c main_v1) (V c main_v0) (V c main_v2)) := by
  show (cfg1.win 3).cut (grid1.coords t) ((dat1 V c).after 3 t) = _
  rw [after1_3]
  unfold out1_3
  rw [View.canon_unit_zero hz]
  simp only [View.ld_unit_zero (S := S512x4096) hz, View.ld_unit_zero (S := S256x4096) hz, View.ld_unit_zero (S := S1x256) hz]
  obtain ⟨e0, e1, e2, e3, e4, e5, e6, e7⟩ := idx_facts t
  funext j
  obtain ⟨p, q, rfl⟩ : ∃ (p : Fin 512) (q : Fin 256), j = ix2 p q := ⟨j 0, j 1, eq_ix2 (n0 := 512) (n1 := 256) j⟩
  show k1_pay1 (F := Ideal) (iblk1 V c 0 t) (iblk1 V c 1 t) (iblk1 V c 2 t) (ix2 p q)
    = linear2 (V c main_v1) (V c main_v0) (V c main_v2) (((cfg1.win 3).blk t).view.emb (ix2 p q))
  refine (payload_apply _ _ _ p q).trans ?_
  -- where each input block's entry sits in its array, against where the output's entry (p, q) sits
  have h0 : ∀ k : Fin 4096, ((cfg1.win 0).blk t).view.emb (ix2 p k) = ix2 ((((cfg1.win 3).blk t).view.emb (ix2 p q)) 0) k := fun k => by
    funext a; apply Fin.ext
    match a with
    | ⟨0, _⟩ => show win1_0.index t (0 : Fin 2) * 512 + 1 * p.val = win1_3.index t (0 : Fin 2) * 512 + 1 * p.val; omega
    | ⟨1, _⟩ => show win1_0.index t (1 : Fin 2) * 4096 + 1 * k.val = k.val; omega
  have h1 : ∀ k : Fin 4096, ((cfg1.win 1).blk t).view.emb (ix2 q k) = ix2 ((((cfg1.win 3).blk t).view.emb (ix2 p q)) 1) k := fun k => by
    funext a; apply Fin.ext
    match a with
    | ⟨0, _⟩ => show win1_1.index t (0 : Fin 2) * 256 + 1 * q.val = win1_3.index t (1 : Fin 2) * 256 + 1 * q.val; omega
    | ⟨1, _⟩ => show win1_1.index t (1 : Fin 2) * 4096 + 1 * k.val = k.val; omega
  have h2 : ((cfg1.win 2).blk t).view.emb (ix2 (0 : Fin 1) q) = ix2 (0 : Fin 1) ((((cfg1.win 3).blk t).view.emb (ix2 p q)) 1) := by
    funext a; apply Fin.ext
    match a with
    | ⟨0, _⟩ => show win1_2.index t (0 : Fin 2) * 1 + 1 * 0 = 0; omega
    | ⟨1, _⟩ => show win1_2.index t (1 : Fin 2) * 256 + 1 * q.val = win1_3.index t (1 : Fin 2) * 256 + 1 * q.val; omega
  -- the same sum, for any three arrays of these shapes
  have key : ∀ (X : (⟨2, ![8192, 4096]⟩ : Shape).Idx → EReal) (Q : (⟨2, ![11008, 4096]⟩ : Shape).Idx → EReal)
      (B : (⟨2, ![1, 11008]⟩ : Shape).Idx → EReal),
      (∑ k : Fin 4096, X (((cfg1.win 0).blk t).view.emb (ix2 p k)) * Q (((cfg1.win 1).blk t).view.emb (ix2 q k)))
          + B (((cfg1.win 2).blk t).view.emb (ix2 (0 : Fin 1) q))
        = linear2 X Q B (((cfg1.win 3).blk t).view.emb (ix2 p q)) := fun X Q B => by
    show _ = (∑ k : Fin 4096, X (ix2 ((((cfg1.win 3).blk t).view.emb (ix2 p q)) 0) k) * Q (ix2 ((((cfg1.win 3).blk t).view.emb (ix2 p q)) 1) k))
        + B (ix2 (0 : Fin 1) ((((cfg1.win 3).blk t).view.emb (ix2 p q)) 1))
    simp only [h0, h1, h2]
    rfl
  exact key (V c main_v1) (V c main_v0) (V c main_v2)

/-- After the region's last write-back the output array is the linear layer of the three input arrays as the region
    found them: flattened activations, quantised weight, bias row. -/
theorem matmul_array (c : Dev nD) :
    (dat1 (F := Ideal) V c).arrAt 3 cfg1.N = linear2 (V c main_v1) (V c main_v0) (V c main_v2) :=
  (dat1 (F := Ideal) V c).arrAt_eq_of_cover 3 (linear2 (V c main_v1) (V c main_v0) (V c main_v2))
    (fun t _ => flushed_eq V c t) (fun i => cover i)

end Cert.KernelIdeal.MatmulRegion

end
-- ==== Proof.Flatten.lean ====
/-
  Flattening the batch and position axes into one row axis, and back, changes nothing: row r = b · 2048 + s of the
  flattened activations is row (b, s) of the activations, entry (r, o) of the flattened result is entry (b, s, o) of
  the result, and the bias as a one-row matrix reads the bias. So the layer computed on flattened rows, unflattened,
  is the specified layer.
-/
import proofs.«148148_j27273042330117_1_alg».proof.Proof.Spec
import Idealize.ShloMosaic.Lib.Pipeline.Value
import Idealize.ShloMosaic.Lib.ValueLayout

noncomputable section

open scoped BigOperators

namespace Cert.QuantLinear

open Idealize.ShloMosaic Idealize.ShloMosaic.ValueIdx

/-- Row b · 2048 + s of the flattened activations, at column k, is the activation at (b, s, k). -/
theorem flatRows_apply (x : (⟨3, ![4, 2048, 4096]⟩ : Shape).Idx → EReal)
    (h : (⟨3, ![4, 2048, 4096]⟩ : Shape).ShapeCasts ⟨2, ![8192, 4096]⟩) (b : Fin 4) (s : Fin 2048) (k : Fin 4096)
    (r : Fin 8192) (hr : r.val = b.val * 2048 + s.val) :
    shapeCast ⟨2, ![8192, 4096]⟩ x h (ix2 r k) = x (ix3 b s k) :=
  shapeCast_apply x h _ _ (by
    rw [Shape.rowMajor_val_three, Shape.rowMajor_val_two]
    show (b.val * 2048 + s.val) * 4096 + k.val = r.val * 4096 + k.val
    rw [hr])

/-- The layer on flattened rows, with its rows split back into (batch, position), is the specified layer. -/
theorem unflatten_linear2 (x : (⟨3, ![4, 2048, 4096]⟩ : Shape).Idx → EReal) (w : (⟨2, ![11008, 4096]⟩ : Shape).Idx → EReal)
    (bd : (⟨2, ![11008, 192]⟩ : Shape).Idx → EReal) (bu : (⟨2, ![192, 4096]⟩ : Shape).Idx → EReal)
    (bias : (⟨1, ![11008]⟩ : Shape).Idx → EReal)
    (h1 : (⟨3, ![4, 2048, 4096]⟩ : Shape).ShapeCasts ⟨2, ![8192, 4096]⟩)
    (h2 : (⟨1, ![11008]⟩ : Shape).ShapeCasts ⟨2, ![1, 11008]⟩)
    (h3 : (⟨2, ![8192, 11008]⟩ : Shape).ShapeCasts ⟨3, ![4, 2048, 11008]⟩) :
    shapeCast ⟨3, ![4, 2048, 11008]⟩
        (linear2 (shapeCast ⟨2, ![8192, 4096]⟩ x h1) (qweightArr w bd bu) (shapeCast ⟨2, ![1, 11008]⟩ bias h2)) h3
      = result x w bd bu bias := by
  funext j
  obtain ⟨b, s, o, rfl⟩ : ∃ (b : Fin 4) (s : Fin 2048) (o : Fin 11008), j = ix3 b s o := ⟨j 0, j 1, j 2, eq_ix3 j⟩
  have hb := b.isLt
  have hs := s.isLt
  let r : Fin 8192 := ⟨b.val * 2048 + s.val, by omega⟩
  rw [shapeCast_apply _ h3 (ix3 b s o) (ix2 r o) (by
    rw [Shape.rowMajor_val_three, Shape.rowMajor_val_two]
    show (b.val * 2048 + s.val) * 11008 + o.val = (b.val * 2048 + s.val) * 11008 + o.val
    rfl)]
  show (∑ k : Fin 4096, shapeCast ⟨2, ![8192, 4096]⟩ x h1 (ix2 r k) * qweight w bd bu o k)
      + shapeCast ⟨2, ![1, 11008]⟩ bias h2 (ix2 (0 : Fin 1) o)
    = (∑ k : Fin 4096, x (ix3 b s k) * qweight w bd bu o k) + bias (ix1 o)
  rw [shapeCast_a_1a_apply bias h2 (0 : Fin 1) o]
  refine congrArg (· + bias (ix1 o)) (Finset.sum_congr rfl fun k _ => ?_)
  rw [flatRows_apply x h1 b s k r rfl]

end Cert.QuantLinear

end
-- ==== Proof.KernelValue.lean ====
/-
  The kernel program's result, read through the whole run. The first region leaves the quantised composed weight in
  its output array; two reshapes flatten the activations to rows and turn the bias into a one-row matrix; the second
  region leaves the layer on flattened rows; the last reshape splits the rows back into (batch, position). Each array
  a stage reads is traced back to the launch memory, and the layer on flattened rows, unflattened, is the specified
  layer.
-/
import proofs.«148148_j27273042330117_1_alg».proof.Proof.Gen.KernelIdeal.Frame
import proofs.«148148_j27273042330117_1_alg».proof.Proof.QuantRegion
import proofs.«148148_j27273042330117_1_alg».proof.Proof.MatmulRegion
import proofs.«148148_j27273042330117_1_alg».proof.Proof.Flatten
import Idealize.ShloMosaic.Lib.StableHlo.Run

set_option maxRecDepth 16384

noncomputable section

namespace Cert.KernelIdeal.KernelValue

open Idealize.ShloMosaic Idealize.ShloMosaic.TcCoe Idealize.ShloMosaic.ValueIdx Idealize.SL.Sem
open Idealize.ShloMosaic.StableHlo
open Cert.KernelIdeal Cert.KernelIdeal.Gen Cert.QuantLinear

variable (m : (ℓ : Loc nD τ sig) → Buf (Elt Ideal) ℓ) (ρ : Dev nD → PrngReg)

/-- The first region's output array at its exit: the quantised composed weight of the launch arrays. -/
theorem quantised_at_exit (c : Dev nD) :
    W1 m ρ c (Proc.devRef .tc main_v0)
      = qweightArr (m ((c : Thread nD τ).loc main_arg1)) (m ((c : Thread nD τ).loc main_arg2)) (m ((c : Thread nD τ).loc main_arg3)) :=
  (W1_arr m ρ c 3).trans (QuantRegion.quant_array (V0 m ρ) c)

/-- The flattened activations the second region reads. -/
theorem flat_activations (c : Dev nD) :
    V2 m ρ c main_v1 = shapeCast S8192x4096 (m ((c : Thread nD τ).loc main_arg0)) shapeCasts_S4x2048x4096_S8192x4096 := by
  show StableHlo.after hostOps1 (W1 m ρ c) (Proc.devRef .tc main_v1) = _
  after_results
  rw [W1_of_ne m ρ c main_arg0 (by decide)]
  rfl

/-- The bias as the one-row matrix the second region reads. -/
theorem bias_row (c : Dev nD) :
    V2 m ρ c main_v2 = shapeCast S1x11008 (m ((c : Thread nD τ).loc main_arg4)) shapeCasts_S11008_S1x11008 := by
  show StableHlo.after hostOps1 (W1 m ρ c) (Proc.devRef .tc main_v2) = _
  after_results
  rw [W1_of_ne m ρ c main_arg4 (by decide)]
  rfl

/-- The two reshapes leave the quantised weight where the first region put it. -/
theorem quantised_at_entry (c : Dev nD) :
    V2 m ρ c main_v0
      = qweightArr (m ((c : Thread nD τ).loc main_arg1)) (m ((c : Thread nD τ).loc main_arg2)) (m ((c : Thread nD τ).loc main_arg3)) := by
  show StableHlo.after hostOps1 (W1 m ρ c) (Proc.devRef .tc main_v0) = _
  after_results
  exact quantised_at_exit m ρ c

/-- The result buffer after the run is the specified layer of the launch arrays. -/
theorem result_at_return (c : Dev nD) :
    W4 m ρ c (Proc.devRef .tc main_v4)
      = result (m ((c : Thread nD τ).loc main_arg0)) (m ((c : Thread nD τ).loc main_arg1)) (m ((c : Thread nD τ).loc main_arg2))
          (m ((c : Thread nD τ).loc main_arg3)) (m ((c : Thread nD τ).loc main_arg4)) := by
  show StableHlo.after hostOps2 (W3 m ρ c) (Proc.devRef .tc main_v4) = _
  after_results
  rw [W3_arr m ρ c 3, MatmulRegion.matmul_array (V2 m ρ) c, flat_activations, quantised_at_entry, bias_row]
  exact unflatten_linear2 _ _ _ _ _ _ _ _

end Cert.KernelIdeal.KernelValue

end
-- ==== Proof.RefValue.lean ====
/-
  The reference program's result, read one operation at a time, is the layer of the specification, entry by entry.
-/
import proofs.«148148_j27273042330117_1_alg».proof.Proof.Gen.ReferenceIdeal.Read
import proofs.«148148_j27273042330117_1_alg».proof.Proof.Spec
import Idealize.ShloMosaic.Lib.ValueIdx
import Idealize.ShloMosaic.PureOps.Ideal.Laws
import Idealize.ShloMosaic.PureOps.Reduce

set_option maxRecDepth 16384

noncomputable section

open scoped BigOperators

namespace Cert.ReferenceIdeal.RefValue

open Idealize.ShloMosaic Idealize.ShloMosaic.TcCoe Idealize.ShloMosaic.ValueIdx Idealize.SL.Sem
open Cert.ReferenceIdeal Cert.ReferenceIdeal.Gen Cert.QuantLinear

/-! ## The composed index functions of the reading, at an index given by coordinates -/

section Indices
variable (b : Fin 4) (s : Fin 2048) (o : Fin 11008) (i : Fin 4096)

/-- The first product reads the down factor at (o, k) … -/
theorem lidx_v0 (k : Fin 192) : Read.lidx_main_v0 (ix2 o i) k = ix2 o k :=
  funext fun a => Fin.ext (by match a with | ⟨0, _⟩ => rfl | ⟨1, _⟩ => rfl)
/-- … and the up factor at (k, i). -/
theorem ridx_v0 (k : Fin 192) : Read.ridx_main_v0 (ix2 o i) k = ix2 k i :=
  funext fun a => Fin.ext (by match a with | ⟨0, _⟩ => rfl | ⟨1, _⟩ => rfl)
/-- A column of per-row values is read at (o, 0) from every entry (o, i) of the row. -/
theorem idx_v18 : Read.idx_main_v18 (ix2 o i) = ix2 o (0 : Fin 1) :=
  funext fun a => Fin.ext (by match a with | ⟨0, _⟩ => rfl | ⟨1, _⟩ => rfl)
theorem idx_v21 : Read.idx_main_v21 (ix2 o i) = ix2 o (0 : Fin 1) :=
  funext fun a => Fin.ext (by match a with | ⟨0, _⟩ => rfl | ⟨1, _⟩ => rfl)
theorem idx_v24 : Read.idx_main_v24 (ix2 o i) = ix2 o (0 : Fin 1) :=
  funext fun a => Fin.ext (by match a with | ⟨0, _⟩ => rfl | ⟨1, _⟩ => rfl)
theorem idx_v26 : Read.idx_main_v26 (ix2 o i) = ix2 o (0 : Fin 1) :=
  funext fun a => Fin.ext (by match a with | ⟨0, _⟩ => rfl | ⟨1, _⟩ => rfl)
/-- The column's entry (o, 0) reads the vector of row extrema at o. -/
theorem idx_v3 (z : Fin 1) : Read.idx_main_v3 (ix2 o z) = ix1 o :=
  funext fun a => Fin.ext (by match a with | ⟨0, _⟩ => rfl)
theorem idx_v7 (z : Fin 1) : Read.idx_main_v7 (ix2 o z) = ix1 o :=
  funext fun a => Fin.ext (by match a with | ⟨0, _⟩ => rfl)
/-- The last product reads the activations at (b, s, k) … -/
theorem lidx_v28 (k : Fin 4096) : Read.lidx_main_v28 (ix3 b s o) k = ix3 b s k :=
  funext fun a => Fin.ext (by match a with | ⟨0, _⟩ => rfl | ⟨1, _⟩ => rfl | ⟨2, _⟩ => rfl)
/-- … and the quantised weight at (o, k). -/
theorem ridx_v28 (k : Fin 4096) : Read.ridx_main_v28 (ix3 b s o) k = ix2 o k :=
  funext fun a => Fin.ext (by match a with | ⟨0, _⟩ => rfl | ⟨1, _⟩ => rfl)
/-- The bias, broadcast twice, is read at o. -/
theorem idx_v29_v30 : Read.idx_main_v29 (Read.idx_main_v30 (ix3 b s o)) = ix1 o :=
  funext fun a => Fin.ext (by match a with | ⟨0, _⟩ => rfl)

end Indices

/-! ## The stages, in program order -/

section Stages
variable (x1 : (⟨S11008x4096, .f32⟩ : BufTy).Contents (Elt Ideal)) (x2 : (⟨S11008x192, .f32⟩ : BufTy).Contents (Elt Ideal))
  (x3 : (⟨S192x4096, .f32⟩ : BufTy).Contents (Elt Ideal))

/-- The composed weight at (o, i): the base entry plus the rank-192 product's. -/
theorem v1_at (o : Fin 11008) (i : Fin 4096) :
    Read.val_main_v1 (F := Ideal) x1 x2 x3 (ix2 o i) = composed x1 x2 x3 o i := by
  rw [Read.val_main_v1_apply, Read.val_main_v0_apply]
  simp only [lidx_v0, ridx_v0]
  rfl

/-- The source index over the result index o with coordinate k on the dropped axis is (o, k). -/
theorem lift_row (h : S11008x4096.Reduces [1] S11008) (o : Fin 11008) (k : Fin 4096) :
    h.lift (ix1 o) k = ix2 o k :=
  funext fun a => Fin.ext (by match a with | ⟨0, _⟩ => rfl | ⟨1, _⟩ => rfl)

/-- The row minimum: min is commutative and associative, so the reduce over axis 1 is the fold over the row's entries. -/
theorem v2_at (o : Fin 11008) :
    Read.val_main_v2 (F := Ideal) x1 x2 x3 (ix1 o)
      = (Finset.univ : Finset (Fin 4096)).fold min (Ideal.ofBits .f32 0x7F800000#32) (composed x1 x2 x3 o) := by
  have h : S11008x4096.Reduces [1] S11008 := by decide
  unfold Read.val_main_v2
  rw [Host.reduce_eq_fold_single (FloatOps.minimumf (F := Ideal) (φ := .f32)) _ _ _ h]
  have e : (Read.val_main_v1 (F := Ideal) x1 x2 x3 ∘ h.lift (ix1 o)) = composed x1 x2 x3 o :=
    funext fun (k : Fin 4096) =>
      (congrArg (Read.val_main_v1 (F := Ideal) x1 x2 x3) (lift_row h o k)).trans (v1_at x1 x2 x3 o k)
  rw [e]
  rfl

/-- The row maximum, likewise. -/
theorem v6_at (o : Fin 11008) :
    Read.val_main_v6 (F := Ideal) x1 x2 x3 (ix1 o)
      = (Finset.univ : Finset (Fin 4096)).fold max (Ideal.ofBits .f32 0xFF800000#32) (composed x1 x2 x3 o) := by
  have h : S11008x4096.Reduces [1] S11008 := by decide
  unfold Read.val_main_v6
  rw [Host.reduce_eq_fold_single (FloatOps.maximumf (F := Ideal) (φ := .f32)) _ _ _ h]
  have e : (Read.val_main_v1 (F := Ideal) x1 x2 x3 ∘ h.lift (ix1 o)) = composed x1 x2 x3 o :=
    funext fun (k : Fin 4096) =>
      (congrArg (Read.val_main_v1 (F := Ideal) x1 x2 x3) (lift_row h o k)).trans (v1_at x1 x2 x3 o k)
  rw [e]
  rfl

/-- The lower end of the row's range, widened to contain 0. -/
theorem v5_at (o : Fin 11008) :
    Read.val_main_v5 (F := Ideal) x1 x2 x3 (ix2 o (0 : Fin 1)) = lo (composed x1 x2 x3 o) := by
  rw [Read.val_main_v5_apply, Read.val_main_v3_apply, Read.val_main_v4_apply, Read.val_main_cst_0_apply, idx_v3, v2_at]
  simp only [Ideal.minimumf_def, Ideal.ofBits_def, Ideal.ofBits_zero_f32]
  rfl

/-- The upper end of the row's range, widened to contain 0. -/
theorem v9_at (o : Fin 11008) :
    Read.val_main_v9 (F := Ideal) x1 x2 x3 (ix2 o (0 : Fin 1)) = hi (composed x1 x2 x3 o) := by
  rw [Read.val_main_v9_apply, Read.val_main_v7_apply, Read.val_main_v8_apply, Read.val_main_cst_2_apply, idx_v7, v6_at]
  simp only [Ideal.maximumf_def, Ideal.ofBits_def, Ideal.ofBits_zero_f32]
  rfl

/-- The step: a fifteenth of the range, not below the floor. -/
theorem v14_at (o : Fin 11008) :
    Read.val_main_v14 (F := Ideal) x1 x2 x3 (ix2 o (0 : Fin 1)) = step (composed x1 x2 x3 o) := by
  rw [Read.val_main_v14_apply, Read.val_main_v12_apply, Read.val_main_v10_apply, Read.val_main_v11_apply,
    Read.val_main_cst_3_apply, Read.val_main_v13_apply, Read.val_main_cst_4_apply, v9_at, v5_at]
  simp only [Ideal.maximumf_def, Ideal.hostDivf_def, Ideal.subf_def, Ideal.ofBits_def]
  rfl

/-- The zero point: the rounded position of 0 on the step's scale. -/
theorem v17_at (o : Fin 11008) :
    Read.val_main_v17 (F := Ideal) x1 x2 x3 (ix2 o (0 : Fin 1)) = zeroPt (composed x1 x2 x3 o) := by
  rw [Read.val_main_v17_apply, Read.val_main_v16_apply, Read.val_main_v15_apply, v5_at, v14_at]
  simp only [Ideal.hostUnary_roundeven_def, Ideal.hostDivf_def, Ideal.hostNegf_def, Ideal.negf_def]
  rfl

/-- The quantised weight at (o, i): the level, clamped to [0, 15], mapped back. -/
theorem v27_at (o : Fin 11008) (i : Fin 4096) :
    Read.val_main_v27 (F := Ideal) x1 x2 x3 (ix2 o i) = qweight x1 x2 x3 o i := by
  rw [Read.val_main_v27_apply, Read.val_main_v25_apply, Read.val_main_v23_apply, Read.val_main_call2_v4_apply,
    Read.val_main_call2_v3_apply, Read.val_main_cst_6_apply, Read.val_main_call2_v2_apply, Read.val_main_call2_v1_apply,
    Read.val_main_call2_v0_apply, Read.val_main_cst_5_apply, Read.val_main_v22_apply, Read.val_main_v20_apply,
    Read.val_main_v19_apply, Read.val_main_v18_apply, Read.val_main_v21_apply, Read.val_main_v24_apply,
    Read.val_main_v26_apply, idx_v18, idx_v21, idx_v24, idx_v26, v1_at, v14_at, v17_at]
  simp only [Ideal.mulf_def, Ideal.subf_def, Ideal.minimumf_def, Ideal.maximumf_def, Ideal.addf_def,
    Ideal.hostUnary_roundeven_def, Ideal.hostDivf_def, Ideal.ofBits_def, Ideal.ofBits_zero_f32]
  rfl

end Stages

/-- The reference's last stage, as a function of the five argument arrays, is the specified layer. -/
theorem ref_result (x0 : (⟨S4x2048x4096, .f32⟩ : BufTy).Contents (Elt Ideal)) (x1 : (⟨S11008x4096, .f32⟩ : BufTy).Contents (Elt Ideal))
    (x2 : (⟨S11008x192, .f32⟩ : BufTy).Contents (Elt Ideal)) (x3 : (⟨S192x4096, .f32⟩ : BufTy).Contents (Elt Ideal))
    (x4 : (⟨S11008, .f32⟩ : BufTy).Contents (Elt Ideal)) :
    Cert.ReferenceIdeal.Read.val_main_v31 (F := Ideal) x0 x1 x2 x3 x4 = result x0 x1 x2 x3 x4 := by
  funext j
  obtain ⟨b, s, o, rfl⟩ : ∃ b s o, j = ix3 b s o := ⟨j 0, j 1, j 2, eq_ix3 j⟩
  rw [Read.val_main_v31_apply, Read.val_main_v28_apply, Read.val_main_v30_apply, Read.val_main_v29_apply, idx_v29_v30]
  simp only [lidx_v28, ridx_v28, v27_at]
  rfl

end Cert.ReferenceIdeal.RefValue

end
-- ==== Proof.lean ====
/-
  The proof of `Cert.Claim`: a linear layer whose weight is composed from a base weight and a rank-192 product and
  then fake-quantised row by row to sixteen levels, computed by two kernel regions among reshapes, against the same layer
  written with whole-array operations.

  Both idealized programs compute ONE function of the five argument arrays (Proof/Spec.lean): entry (b, s, o) of the
  result is the sum over the 4096 inputs of the activation at (b, s, ·) times the quantised composed weight at (o, ·),
  plus the bias at o. On the kernel's side the first region leaves the quantised weight, block of 128 rows by block
  (Proof/QuantRegion.lean), the second the layer on flattened rows, block of 512 × 256 by block (Proof/MatmulRegion.lean),
  and the reshapes around them only flatten and unflatten (Proof/Flatten.lean, Proof/KernelValue.lean). On the
  reference's side the same operations act on whole arrays (Proof/RefValue.lean). No law beyond reading each operation at
  an index is needed: the two texts apply the same operations in the same order, the kernel's `0 - x` being the
  reference's `-x`, and a change of float format being the identity on the extended reals. The idealization rewrote
  nothing, so `preserves` is trivial; the three frames are the generated ones.
-/
import proofs.«148148_j27273042330117_1_alg».proof.Defs
import proofs.«148148_j27273042330117_1_alg».proof.Proof.Gen.Kernel
import proofs.«148148_j27273042330117_1_alg».proof.Proof.Gen.Kernel.Skeleton
import proofs.«148148_j27273042330117_1_alg».proof.Proof.Gen.Kernel.Launch
import proofs.«148148_j27273042330117_1_alg».proof.Proof.Gen.Kernel.Points
import proofs.«148148_j27273042330117_1_alg».proof.Proof.Gen.Kernel.Frame
import proofs.«148148_j27273042330117_1_alg».proof.Proof.Gen.KernelIdeal
import proofs.«148148_j27273042330117_1_alg».proof.Proof.Gen.KernelIdeal.Skeleton
import proofs.«148148_j27273042330117_1_alg».proof.Proof.Gen.KernelIdeal.Launch
import proofs.«148148_j27273042330117_1_alg».proof.Proof.Gen.KernelIdeal.Points
import proofs.«148148_j27273042330117_1_alg».proof.Proof.Gen.KernelIdeal.Frame
import proofs.«148148_j27273042330117_1_alg».proof.Proof.Gen.ReferenceIdeal
import proofs.«148148_j27273042330117_1_alg».proof.Proof.Gen.Pre_finite_inputs
import proofs.«148148_j27273042330117_1_alg».proof.Proof.Gen.ReferenceIdeal.Run
import proofs.«148148_j27273042330117_1_alg».proof.Proof.Gen.ReferenceIdeal.Read
import proofs.«148148_j27273042330117_1_alg».proof.Proof.KernelRun
import proofs.«148148_j27273042330117_1_alg».proof.Proof.KernelValue
import proofs.«148148_j27273042330117_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the specified layer of those arguments in their
    result buffers: the kernel's by its run read region by region, the reference's by its run read operation by
    operation. -/
theorem algebraic : Cert.algebraic_KernelIdeal_ReferenceIdeal := by
  intro m ρ m' ρ' _ hagree
  refine ⟨fun c => Cert.QuantLinear.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.KernelValue.result_at_return m ρ c), (h c).2⟩)
      (Cert.KernelIdeal.GenRun.run_named (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v31_eq, Cert.ReferenceIdeal.RefValue.ref_result,
      (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
